-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x8192x2048 : Shape := ⟨3, ![8, 8192, 2048]⟩
abbrev S8x8192 : Shape := ⟨2, ![8, 8192]⟩
abbrev S8x2048 : Shape := ⟨2, ![8, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x8192x2048 : S_.BroadcastsInDim S8x8192x2048 (![] : Fin 0 → Fin S8x8192x2048.rank)
  reducesTo_S8x8192x2048_S_d0_1_2 : S8x8192x2048.ReducesTo [0, 1, 2] S_
  bcast_S_S8x8192 : S_.BroadcastsInDim S8x8192 (![] : Fin 0 → Fin S8x8192.rank)
  reducesTo_S8x8192_S_d0_1 : S8x8192.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S8x2048 .f32) (main_v13 : IVec S_ 1) (main_v16 : IVec S8x8192x2048 1) : IVec S_ 1 :=
  let main_c_5 : IVec S_ 1 := constantI S_ 1 1#1
  let main_v17 : IVec S_ 1 := (fun x v => Host.reduce IntOp.andi x v reducesTo_S8x8192x2048_S_d0_1_2 h_S_) main_v16 main_c_5
  let main_v18 : IVec S_ 1 := andi main_v13 main_v17
  let main_v19 : FVec F S8x2048 .f32 := Host.absf main_arg4
  let main_cst_6 : FVec F S_ .f32 := constant S_ .f32 0x7F800000#32
  let main_v20 : FVec F S8x2048 .f32 := broadcastInDim S8x2048 ![] bcast_S_S8x2048 main_cst_6
  let main_v21 : IVec S8x2048 1 := cmpf .olt main_v19 main_v20
  let main_c_7 : IVec S_ 1 := constantI S_ 1 1#1
  let main_v22 : IVec S_ 1 := (fun x v => Host.reduce IntOp.andi x v reducesTo_S8x2048_S_d0_1 h_S_) main_v21 main_c_7
  let main_v23 : IVec S_ 1 := andi main_v18 main_v22
  main_v23

def fn {F : FTy → Type} [FloatOps F] (main_arg0 : FVec F S8x1024x2048 .f32) (main_arg1 : FVec F S8x8192x2048 .f32) (main_arg2 : FVec F S8x8192 .f32) (main_arg3 : FVec F S8x8192x2048 .f32) (main_arg4 : FVec F S8x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x8192x2048 .f32 := Host.absf main_arg1
  let main_cst_0 : FVec F S_ .f32 := constant S_ .f32 0x7F800000#32
  let main_v5 : FVec F S8x8192x2048 .f32 := broadcastInDim S8x8192x2048 ![] bcast_S_S8x8192x2048 main_cst_0
  let main_v6 : IVec S8x8192x2048 1 := cmpf .olt main_v4 main_v5
  let main_c_1 : IVec S_ 1 := constantI S_ 1 1#1
  let main_v7 : IVec S_ 1 := (fun x v => Host.reduce IntOp.andi x v reducesTo_S8x8192x2048_S_d0_1_2 h_S_) main_v6 main_c_1
  let main_v8 : IVec S_ 1 := andi main_v3 main_v7
  let main_v9 : FVec F S8x8192 .f32 := Host.absf main_arg2
  let main_cst_2 : FVec F S_ .f32 := constant S_ .f32 0x7F800000#32
  let main_v10 : FVec F S8x8192 .f32 := broadcastInDim S8x8192 ![] bcast_S_S8x8192 main_cst_2
  let main_v11 : IVec S8x8192 1 := cmpf .olt main_v9 main_v10
  let main_c_3 : IVec S_ 1 := constantI S_ 1 1#1
  let main_v12 : IVec S_ 1 := (fun x v => Host.reduce IntOp.andi x v reducesTo_S8x8192_S_d0_1 h_S_) main_v11 main_c_3
  let main_v13 : IVec S_ 1 := andi main_v8 main_v12
  let main_v14 : FVec F S8x8192x2048 .f32 := Host.absf main_arg3
  let main_cst_4 : FVec F S_ .f32 := constant S_ .f32 0x7F800000#32
  let main_v15 : FVec F S8x8192x2048 .f32 := broadcastInDim S8x8192x2048 ![] bcast_S_S8x8192x2048 main_cst_4
  let main_v16 : IVec S8x8192x2048 1 := cmpf .olt main_v14 main_v15
  fn_part1 (F := F) main_arg4 main_v13 main_v16
-- ==== Kernel.lean ====
abbrev S8x1024x2048 : Shape := ⟨3, ![8, 1024, 2048]⟩
abbrev S8x8192x2048 : Shape := ⟨3, ![8, 8192, 2048]⟩
abbrev S8x8192 : Shape := ⟨2, ![8, 8192]⟩
abbrev S8x2048 : Shape := ⟨2, ![8, 2048]⟩
abbrev S8x1x8192 : Shape := ⟨3, ![8, 1, 8192]⟩
abbrev S8x1x2048 : Shape := ⟨3, ![8, 1, 2048]⟩
abbrev S1x256x2048 : Shape := ⟨3, ![1, 256, 2048]⟩
abbrev S1x1024x2048 : Shape := ⟨3, ![1, 1024, 2048]⟩
abbrev S1x1x1024 : Shape := ⟨3, ![1, 1, 1024]⟩
abbrev S1x1x2048 : Shape := ⟨3, ![1, 1, 2048]⟩
abbrev S256x2048 : Shape := ⟨2, ![256, 2048]⟩
abbrev S1024x2048 : Shape := ⟨2, ![1024, 2048]⟩
abbrev S256x1024 : Shape := ⟨2, ![256, 1024]⟩
abbrev S1x1024 : Shape := ⟨2, ![1, 1024]⟩
abbrev S1x2048 : Shape := ⟨2, ![1, 2048]⟩

abbrev nBuf : Space → Nat
  | .hbm => 11
  | .vmem => 13
  | .smem => 0
  | _ => 0

abbrev bufTy : (tb : Table) → Fin (tcTables nBuf tb) → BufTy
  | .hbm, ⟨0, _⟩ => ⟨S8x1024x2048, .f32⟩
  | .hbm, ⟨1, _⟩ => ⟨S8x8192x2048, .f32⟩
  | .hbm, ⟨2, _⟩ => ⟨S8x8192, .f32⟩
  | .hbm, ⟨3, _⟩ => ⟨S8x8192x2048, .f32⟩
  | .hbm, ⟨4, _⟩ => ⟨S8x2048, .f32⟩
  | .hbm, ⟨5, _⟩ => ⟨S8x1024x2048, .bf16⟩
  | .hbm, ⟨6, _⟩ => ⟨S8x8192x2048, .bf16⟩
  | .hbm, ⟨7, _⟩ => ⟨S8x8192x2048, .bf16⟩
  | .hbm, ⟨8, _⟩ => ⟨S8x1x8192, .f32⟩
  | .hbm, ⟨9, _⟩ => ⟨S8x1x2048, .f32⟩
  | .hbm, ⟨10, _⟩ => ⟨S8x1024x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x2048, .bf16⟩
  | .local _ .vmem, ⟨7, _⟩ => ⟨S1x1024x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x256x2048, .f32⟩
  | .local _ .vmem, ⟨11, _⟩ => ⟨S1x256x2048, .f32⟩
  | .local _ .vmem, ⟨12, _⟩ => ⟨S256x2048, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  shapeCasts_S8x8192_S8x1x8192 : S8x8192.ShapeCasts S8x1x8192
  shapeCasts_S8x2048_S8x1x2048 : S8x2048.ShapeCasts S8x1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S256x1024 : S1x1024.Broadcasts S256x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  shapeCasts_S256x2048_S1x256x2048 : S256x2048.ShapeCasts S1x256x2048
  dot_S256x2048_S1024x2048_S256x1024_1_1_0_0_n_n_wf : DotDims.WF S256x2048 S1024x2048 S256x1024 [1] [1] [0] [0] [] []
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x1024x2048.size a
  hwx0_0 : ∀ i : grid0.Coords, EltTy.bits .bf16 = 32 ∨ (Rect.block (s := S8x1024x2048) S1x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x8192x2048.size a
  hwx0_1 : ∀ i : grid0.Coords, EltTy.bits .bf16 = 32 ∨ (Rect.block (s := S8x8192x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x8192.size a
  hwx0_2 : ∀ i : grid0.Coords, EltTy.bits .f32 = 32 ∨ (Rect.block (s := S8x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x8192x2048.size a
  hwx0_3 : ∀ i : grid0.Coords, EltTy.bits .bf16 = 32 ∨ (Rect.block (s := S8x8192x2048) S1x1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S8x1x2048.size a
  hwx0_4 : ∀ i : grid0.Coords, EltTy.bits .f32 = 32 ∨ (Rect.block (s := S8x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x1024x2048.size a
  hwx0_5 : ∀ i : grid0.Coords, EltTy.bits .f32 = 32 ∨ (Rect.block (s := S8x1024x2048) S1x256x2048.size (cc0_transform_5 i) (hinb0_5 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x1024x2048 : Shape := ⟨3, ![8, 1024, 2048]⟩
abbrev S8x8192x2048 : Shape := ⟨3, ![8, 8192, 2048]⟩
abbrev S8x8192 : Shape := ⟨2, ![8, 8192]⟩
abbrev S8x2048 : Shape := ⟨2, ![8, 2048]⟩
abbrev S8x1024x8192 : Shape := ⟨3, ![8, 1024, 8192]⟩
abbrev S8x1x8192 : Shape := ⟨3, ![8, 1, 8192]⟩
abbrev S_ : Shape := ⟨0, ![]⟩
abbrev S8x1x2048 : Shape := ⟨3, ![8, 1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x8192x2048, .f32⟩
  | .hbm, ⟨2, _⟩ => ⟨S8x8192, .f32⟩
  | .hbm, ⟨3, _⟩ => ⟨S8x8192x2048, .f32⟩
  | .hbm, ⟨4, _⟩ => ⟨S8x2048, .f32⟩
  | .hbm, ⟨5, _⟩ => ⟨S8x1024x8192, .f32⟩
  | .hbm, ⟨6, _⟩ => ⟨S8x1x8192, .f32⟩
  | .hbm, ⟨7, _⟩ => ⟨S8x1024x8192, .f32⟩
  | .hbm, ⟨8, _⟩ => ⟨S8x1024x8192, .f32⟩
  | .hbm, ⟨9, _⟩ => ⟨S_, .f32⟩
  | .hbm, ⟨10, _⟩ => ⟨S8x1024x8192, .f32⟩
  | .hbm, ⟨11, _⟩ => ⟨S8x1024x8192, .f32⟩
  | .hbm, ⟨12, _⟩ => ⟨S8x1024x2048, .f32⟩
  | .hbm, ⟨13, _⟩ => ⟨S8x1x2048, .f32⟩
  | .hbm, ⟨14, _⟩ => ⟨S8x1024x2048, .f32⟩
  | .hbm, ⟨15, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S8x8192_S8x1x8192_0_2 : S8x8192.BroadcastsInDim S8x1x8192 (![0, 2] : Fin 2 → Fin S8x1x8192.rank)
  bcast_S8x1x8192_S8x1024x8192_0_1_2 : S8x1x8192.BroadcastsInDim S8x1024x8192 (![0, 1, 2] : Fin 3 → Fin S8x1024x8192.rank)
  bcast_S_S8x1024x8192 : S_.BroadcastsInDim S8x1024x8192 (![] : Fin 0 → Fin S8x1024x8192.rank)
  bcast_S8x2048_S8x1x2048_0_2 : S8x2048.BroadcastsInDim S8x1x2048 (![0, 2] : Fin 2 → Fin S8x1x2048.rank)
  bcast_S8x1x2048_S8x1024x2048_0_1_2 : S8x1x2048.BroadcastsInDim S8x1024x2048 (![0, 1, 2] : Fin 3 → Fin S8x1024x2048.rank)
  dot_S8x1024x2048_S8x8192x2048_S8x1024x8192_2_2_1_1_0_0_wf : DotDims.WF S8x1024x2048 S8x8192x2048 S8x1024x8192 [2] [2] [1] [1] [0] [0]
  dot_S8x1024x8192_S8x8192x2048_S8x1024x2048_2_1_1_2_0_0_wf : DotDims.WF S8x1024x8192 S8x8192x2048 S8x1024x2048 [2] [1] [1] [2] [0] [0]

variable [Facts₀]

def dot_S8x1024x2048_S8x8192x2048_S8x1024x8192_2_2_1_1_0_0 : DotDims S8x1024x2048 S8x8192x2048 S8x1024x8192 where
  lhsContracting := [2]
  rhsContracting := [2]
  lhsNonContracting := [1]
  rhsNonContracting := [1]
  lhsBatch := [0]
  rhsBatch := [0]
  wf := dot_S8x1024x2048_S8x8192x2048_S8x1024x8192_2_2_1_1_0_0_wf
def dot_S8x1024x8192_S8x8192x2048_S8x1024x2048_2_1_1_2_0_0 : DotDims S8x1024x8192 S8x8192x2048 S8x1024x2048 where
  lhsContracting := [2]
  rhsContracting := [1]
  lhsNonContracting := [1]
  rhsNonContracting := [2]
  lhsBatch := [0]
  rhsBatch := [0]
  wf := dot_S8x1024x8192_S8x8192x2048_S8x1024x2048_2_1_1_2_0_0_wf

class Facts : Prop extends Facts₀ where

variable [Facts]
-- ==== Proof.FfnSpec.lean ====
/-
  The expert feed-forward layer as ONE function of the five argument arrays, over the extended reals:

      hidden e c h = max ((∑ m, x[e,c,m] · w1[e,h,m]) + b1[e,h]) 0
      out    e c o = (∑ h, hidden e c h · w2[e,h,o]) + b2[e,o]

  with e < 8 experts, c < 1024 rows, m < 2048 input features, h < 8192 hidden units, o < 2048 outputs.
  Both programs compute `out`: the reference in two whole contractions, the kernel by summing the hidden axis in
  8 consecutive blocks of 1024 into an accumulator that starts at zero. The only law between the two arrangements is
  that a sum over `a · n` consecutive naturals is the sum of `a` consecutive block sums of length `n`
  (`sum_blocks`): commutative-monoid algebra, true on the extended reals without any finiteness.
-/
import Idealize.ShloMosaic.PureOps.Ideal
import Idealize.ShloMosaic.Lib.ValueIdx
import Mathlib.Algebra.BigOperators.Intervals
import Mathlib.Algebra.BigOperators.Fin

noncomputable section

namespace Cert.ExpertFfn

open Idealize.ShloMosaic Idealize.ShloMosaic.ValueIdx

/-- The argument arrays' index types. -/
abbrev XIdx := (⟨3, ![8, 1024, 2048]⟩ : Shape).Idx
abbrev WIdx := (⟨3, ![8, 8192, 2048]⟩ : Shape).Idx
abbrev B1Idx := (⟨2, ![8, 8192]⟩ : Shape).Idx
abbrev B2Idx := (⟨2, ![8, 2048]⟩ : Shape).Idx

/-- The first layer's pre-activation at expert `e`, row `c`, hidden unit `h`: the row of `x` against the row `h` of
    `w1` (both contracted along their last axis), plus the bias. -/
def pre (x : XIdx → EReal) (w1 : WIdx → EReal) (b1 : B1Idx → EReal) (e : Fin 8) (c : Fin 1024) (h : Fin 8192) : EReal :=
  (∑ m : Fin 2048, x (ix3 e c m) * w1 (ix3 e h m)) + b1 (ix2 e h)

/-- The hidden activation: the pre-activation clipped below at zero. -/
def hidden (x : XIdx → EReal) (w1 : WIdx → EReal) (b1 : B1Idx → EReal) (e : Fin 8) (c : Fin 1024) (h : Fin 8192) : EReal :=
  max (pre x w1 b1 e c h) 0

/-- The layer's result: the hidden row against column `o` of `w2`, plus the second bias. -/
def out (x : XIdx → EReal) (w1 : WIdx → EReal) (b1 : B1Idx → EReal) (w2 : WIdx → EReal) (b2 : B2Idx → EReal) :
    XIdx → EReal := fun i =>
  (∑ h : Fin 8192, hidden x w1 b1 (i 0) (i 1) h * w2 (ix3 (i 0) h (i 2))) + b2 (ix2 (i 0) (i 2))

/-- A sum over `a · n` consecutive naturals, cut into `a` consecutive blocks of length `n`. -/
theorem sum_blocks {M : Type*} [AddCommMonoid M] (a n : ℕ) (f : ℕ → M) :
    ∑ s ∈ Finset.range a, ∑ k ∈ Finset.range n, f (s * n + k) = ∑ h ∈ Finset.range (a * n), f h := by
  induction a with
  | zero => simp
  | succ a ih =>
    rw [Finset.sum_range_succ, ih, Nat.succ_mul, Finset.sum_range_add]

/-- The hidden sum's term at hidden unit `h`, as a function of every natural (zero past the axis's 8192 units). -/
def summand (x : XIdx → EReal) (w1 : WIdx → EReal) (b1 : B1Idx → EReal) (w2 : WIdx → EReal)
    (e : Fin 8) (c : Fin 1024) (o : Fin 2048) (h : ℕ) : EReal :=
  if hh : h < 8192 then hidden x w1 b1 e c ⟨h, hh⟩ * w2 (ix3 e ⟨h, hh⟩ o) else 0

/-- `out` with its hidden sum cut into the 8 consecutive blocks of 1024 hidden units, started from zero: the
    arrangement in which a kernel that walks the hidden axis block by block accumulates it. -/
theorem out_eq_blocks (x : XIdx → EReal) (w1 : WIdx → EReal) (b1 : B1Idx → EReal) (w2 : WIdx → EReal) (b2 : B2Idx → EReal)
    (e : Fin 8) (c : Fin 1024) (o : Fin 2048) :
    out x w1 b1 w2 b2 (ix3 e c o)
      = (0 + ∑ s ∈ Finset.range 8, ∑ k : Fin 1024, summand x w1 b1 w2 e c o (s * 1024 + k.val)) + b2 (ix2 e o) := by
  unfold out
  show (∑ h : Fin 8192, hidden x w1 b1 e c h * w2 (ix3 e h o)) + b2 (ix2 e o) = _
  refine congrArg (· + b2 (ix2 e o)) ?_
  rw [zero_add]
  have h1 : ∑ h : Fin 8192, hidden x w1 b1 e c h * w2 (ix3 e h o)
      = ∑ h ∈ Finset.range 8192, summand x w1 b1 w2 e c o h := by
    rw [Finset.sum_range]
    refine Finset.sum_congr rfl fun h _ => ?_
    unfold summand
    rw [dif_pos h.isLt]
  rw [h1, show (8192 : ℕ) = 8 * 1024 from rfl, ← sum_blocks]
  refine Finset.sum_congr rfl fun s _ => ?_
  rw [Finset.sum_range]

end Cert.ExpertFfn

end
-- ==== Proof.RefIsFfn.lean ====
/-
  The reference program's result, stage by stage, is the layer `out` of the specification: its first contraction
  and bias give the pre-activation, its `maximum` with the zero splat the hidden activation, its second contraction
  and bias the result. Only the stages' index maps have to be matched with the specification's coordinates.
-/
import proofs.«180741_j30545807409459_1_alg».proof.Proof.Gen.ReferenceIdeal.Read
import proofs.«180741_j30545807409459_1_alg».proof.Proof.FfnSpec
import Idealize.ShloMosaic.PureOps.Ideal.Laws

noncomputable section

namespace Cert.ExpertFfn.Reference

open Cert.ReferenceIdeal Cert.ReferenceIdeal.Read Idealize.ShloMosaic Idealize.ShloMosaic.ValueIdx Cert.ExpertFfn

/-- The reference's activation stage at `(e, c, h)` is the specification's hidden activation. -/
theorem activation_apply (x : (⟨S8x1024x2048, .f32⟩ : BufTy).Contents (Elt Ideal)) (w1 : (⟨S8x8192x2048, .f32⟩ : BufTy).Contents (Elt Ideal))
    (b1 : (⟨S8x8192, .f32⟩ : BufTy).Contents (Elt Ideal)) (e : Fin 8) (c : Fin 1024) (h : Fin 8192) :
    val_main_v4 (F := Ideal) x w1 b1 (ix3 e c h) = hidden x w1 b1 e c h := by
  have e1 : ∀ k, lidx_main_v0 (ix3 e c h) k = ix3 e c k := fun k => funext fun a => by
    match a with | ⟨0, _⟩ => rfl | ⟨1, _⟩ => rfl | ⟨2, _⟩ => rfl
  have e2 : ∀ k, ridx_main_v0 (ix3 e c h) k = ix3 e h k := fun k => funext fun a => by
    match a with | ⟨0, _⟩ => rfl | ⟨1, _⟩ => rfl | ⟨2, _⟩ => rfl
  have e3 : idx_main_v1 (idx_main_v2 (ix3 e c h)) = ix2 e h := funext fun a => by
    match a with | ⟨0, _⟩ => rfl | ⟨1, _⟩ => rfl
  rw [val_main_v4_apply, val_main_v3_apply, val_main_v0_apply, val_main_v2_apply, val_main_v1_apply,
    val_main_call0_v0_apply, val_main_call0_cst_apply]
  simp only [e1, e2, e3, Ideal.addf_def, Ideal.maximumf_def, Ideal.ofBits_def, Ideal.ofBits_zero_f32]
  rfl

/-- The reference's result is the specification's `out` of the five arguments. -/
theorem result_eq_out (x : (⟨S8x1024x2048, .f32⟩ : BufTy).Contents (Elt Ideal)) (w1 : (⟨S8x8192x2048, .f32⟩ : BufTy).Contents (Elt Ideal))
    (b1 : (⟨S8x8192, .f32⟩ : BufTy).Contents (Elt Ideal)) (w2 : (⟨S8x8192x2048, .f32⟩ : BufTy).Contents (Elt Ideal))
    (b2 : (⟨S8x2048, .f32⟩ : BufTy).Contents (Elt Ideal)) :
    val_main_v8 (F := Ideal) x w1 b1 w2 b2 = out x w1 b1 w2 b2 := by
  funext i
  have el : ∀ k, lidx_main_v5 i k = ix3 (i 0) (i 1) k := fun k => funext fun a => by
    match a with | ⟨0, _⟩ => rfl | ⟨1, _⟩ => rfl | ⟨2, _⟩ => rfl
  have er : ∀ k, ridx_main_v5 i k = ix3 (i 0) k (i 2) := fun k => funext fun a => by
    match a with | ⟨0, _⟩ => rfl | ⟨1, _⟩ => rfl | ⟨2, _⟩ => rfl
  have eb : idx_main_v6 (idx_main_v7 i) = ix2 (i 0) (i 2) := funext fun a => by
    match a with | ⟨0, _⟩ => rfl | ⟨1, _⟩ => rfl
  rw [val_main_v8_apply, val_main_v5_apply, val_main_v7_apply, val_main_v6_apply, eb]
  unfold out
  show _ + _ = _ + _
  refine congrArg₂ (· + ·) (Finset.sum_congr rfl fun k _ => ?_) rfl
  rw [el, er]
  exact congrArg (· * w2 (ix3 (i 0) k (i 2))) (activation_apply x w1 b1 (i 0) (i 1) k)

end Cert.ExpertFfn.Reference

end
-- ==== Proof.BlockTerms.lean ====
/-
  One grid point's arithmetic, read entry by entry on the extended reals.

  At a point the body holds a [256, 2048] block of rows `xb`, a [1024, 2048] block `w1b` of first-layer weights (one
  hidden block), their 1024 biases `b1b`, the matching [1024, 2048] block `w2b` of second-layer weights, and the
  accumulator `acc`. What it stores back into the accumulator is, at row `r` and output column `o`,

      acc[r,o] + ∑ k < 1024, max ((∑ m < 2048, xb[r,m] · w1b[k,m]) + b1b[k]) 0 · w2b[k,o]

  (`partial_apply`), the accumulator it zeroes at a hidden axis's first block is `0` everywhere (`zero_apply`), and
  what it writes to the output block at the last one is the accumulator plus the second bias (`biased_apply`).
  A change of float format is the identity here, a matrix unit's product into a zero accumulator is the plain sum
  over its one contracted axis, and the layout operations only rename indices.
-/
import proofs.«180741_j30545807409459_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.ExpertFfn.Block

open Cert.KernelIdeal Cert.KernelIdeal.Gen Idealize.ShloMosaic Idealize.ShloMosaic.ValueIdx

/-! ## The first product: rows of `xb` against rows of `w1b` (both contracted along their last axis) -/

theorem first_lhs_0 (i : S256x1024.Idx) (q : dot_S256x2048_S1024x2048_S256x1024_1_1_0_0_n_n.contr.Idx) :
    (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
theorem first_lhs_1 (i : S256x1024.Idx) (q : dot_S256x2048_S1024x2048_S256x1024_1_1_0_0_n_n.contr.Idx) :
    (dot_S256x2048_S1024x2048_S256x1024_1_1_0_0_n_n.lhsIdx i q 1).val = (q ⟨0, by decide⟩).val :=
  dot_S256x2048_S1024x2048_S256x1024_1_1_0_0_n_n.lhsIdx_val_of_single rfl i q
theorem first_rhs_0 (i : S256x1024.Idx) (q : dot_S256x2048_S1024x2048_S256x1024_1_1_0_0_n_n.contr.Idx) :
    (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
theorem first_rhs_1 (i : S256x1024.Idx) (q : dot_S256x2048_S1024x2048_S256x1024_1_1_0_0_n_n.contr.Idx) :
    (dot_S256x2048_S1024x2048_S256x1024_1_1_0_0_n_n.rhsIdx i q 1).val = (q ⟨0, by decide⟩).val :=
  dot_S256x2048_S1024x2048_S256x1024_1_1_0_0_n_n.rhsIdx_val_of_single rfl i q

/-- The first product at `(r, k)`: row `r` of the left block against row `k` of the right block. -/
theorem first_apply (a : FVec Ideal S256x2048 .bf16) (b : FVec Ideal S1024x2048 .bf16) (r : Fin 256) (k : Fin 1024) :
    matmul dot_S256x2048_S1024x2048_S256x1024_1_1_0_0_n_n none a b (constant S256x1024 .f32 0x00000000#32) (ix2 r k)
      = ∑ mm : Fin 2048, a (ix2 r mm) * b (ix2 k mm) := by
  simp only [matmul]
  rw [Ideal.matmul_constant_zero_apply, ← Equiv.sum_comp (contrEquiv1 dot_S256x2048_S1024x2048_S256x1024_1_1_0_0_n_n 2048 rfl rfl).symm]
  refine Finset.sum_congr rfl fun mm _ => ?_
  have hk := contrEquiv1_symm_val dot_S256x2048_S1024x2048_S256x1024_1_1_0_0_n_n 2048 rfl rfl mm
  have el : dot_S256x2048_S1024x2048_S256x1024_1_1_0_0_n_n.lhsIdx (ix2 r k) ((contrEquiv1 dot_S256x2048_S1024x2048_S256x1024_1_1_0_0_n_n 2048 rfl rfl).symm mm) = ix2 r mm := funext fun ax => Fin.ext (by
    match ax with
    | ⟨0, _⟩ => exact first_lhs_0 _ _
    | ⟨1, _⟩ => exact (first_lhs_1 _ _).trans hk)
  have er : dot_S256x2048_S1024x2048_S256x1024_1_1_0_0_n_n.rhsIdx (ix2 r k) ((contrEquiv1 dot_S256x2048_S1024x2048_S256x1024_1_1_0_0_n_n 2048 rfl rfl).symm mm) = ix2 k mm := funext fun ax => Fin.ext (by
    match ax with
    | ⟨0, _⟩ => exact first_rhs_0 _ _
    | ⟨1, _⟩ => exact (first_rhs_1 _ _).trans hk)
  rw [el, er]

/-! ## The second product: rows of the hidden block against columns of `w2b` -/

theorem second_lhs_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem second_lhs_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem second_rhs_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem second_rhs_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The second product at `(r, o)`: row `r` of the left block against column `o` of the right block. -/
theorem second_apply (a : FVec Ideal S256x1024 .bf16) (b : FVec Ideal S1024x2048 .bf16) (r : Fin 256) (o : Fin 2048) :
    matmul dot_S256x1024_S1024x2048_S256x2048_1_0_0_1_n_n none a b (constant S256x2048 .f32 0x00000000#32) (ix2 r o)
      = ∑ k : Fin 1024, a (ix2 r k) * b (ix2 k o) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 r o) ((contrEquiv1 dot_S256x1024_S1024x2048_S256x2048_1_0_0_1_n_n 1024 rfl rfl).symm k) = ix2 r k := funext fun ax => Fin.ext (by
    match ax with
    | ⟨0, _⟩ => exact second_lhs_0 _ _
    | ⟨1, _⟩ => exact (second_lhs_1 _ _).trans hk)
  have er : dot_S256x1024_S1024x2048_S256x2048_1_0_0_1_n_n.rhsIdx (ix2 r o) ((contrEquiv1 dot_S256x1024_S1024x2048_S256x2048_1_0_0_1_n_n 1024 rfl rfl).symm k) = ix2 k o := funext fun ax => Fin.ext (by
    match ax with
    | ⟨0, _⟩ => exact (second_rhs_0 _ _).trans hk
    | ⟨1, _⟩ => exact second_rhs_1 _ _)
  rw [el, er]

/-! ## The three stored values, entry by entry -/

/-- The value stored into the accumulator at a hidden axis's first block is zero everywhere. -/
theorem zero_apply (j : S256x2048.Idx) : k0_pay1 (F := Ideal) j = 0 := by
  unfold k0_pay1
  rw [shapeCast_self]
  exact Ideal.ofBits_zero_f32

/-- The hidden block at `(r, k)`: the pre-activation clipped at zero. -/
def hiddenBlk (xb : Vec Ideal S1x256x2048 .bf16) (w1b : Vec Ideal S1x1024x2048 .bf16) (b1b : Vec Ideal S1x1x1024 .f32)
    (r : Fin 256) (k : Fin 1024) : EReal :=
  max ((∑ mm : Fin 2048, xb (ix3 (0 : Fin 1) r mm) * w1b (ix3 (0 : Fin 1) k mm)) + b1b (ix3 (0 : Fin 1) (0 : Fin 1) k)) 0

/-- One hidden block's contribution at `(r, o)`. -/
def addend (xb : Vec Ideal S1x256x2048 .bf16) (w1b : Vec Ideal S1x1024x2048 .bf16) (b1b : Vec Ideal S1x1x1024 .f32)
    (w2b : Vec Ideal S1x1024x2048 .bf16) (r : Fin 256) (o : Fin 2048) : EReal :=
  ∑ k : Fin 1024, hiddenBlk xb w1b b1b r k * w2b (ix3 (0 : Fin 1) k o)

/-- What a point stores back into the accumulator, at `(r, o)`: what the accumulator held plus the block's addend. -/
theorem partial_apply (xb : Vec Ideal S1x256x2048 .bf16) (w1b : Vec Ideal S1x1024x2048 .bf16) (b1b : Vec Ideal S1x1x1024 .f32)
    (w2b : Vec Ideal S1x1024x2048 .bf16) (acc : Vec Ideal S256x2048 .f32) (r : Fin 256) (o : Fin 2048) :
    k0_pay2 (F := Ideal) xb w1b b1b w2b acc (ix2 r o) = acc (ix2 r o) + addend xb w1b b1b w2b r o := by
  unfold k0_pay2
  rw [shapeCast_self]
  refine (addf_apply _ _ _).trans ?_
  refine congrArg (acc (ix2 r o) + ·) ?_
  refine (second_apply _ _ r o).trans ?_
  unfold addend
  refine Finset.sum_congr rfl fun k _ => ?_
  refine congrArg₂ (· * ·) ?_ (shapeCast_1ab_ab_apply w2b _ k o)
  refine (truncf_apply (ψ := .bf16) _ bitsLt_bf16_f32 _).trans ?_
  refine (maximumf_apply _ _ _).trans ?_
  unfold hiddenBlk
  refine congrArg₂ max ?_ Ideal.ofBits_zero_f32
  refine (addf_apply _ _ _).trans ?_
  refine congrArg₂ (· + ·) ?_ ?_
  · refine (first_apply _ _ r k).trans ?_
    refine Finset.sum_congr rfl fun mm _ => ?_
    exact congrArg₂ (· * ·) (shapeCast_1ab_ab_apply xb _ r mm) (shapeCast_1ab_ab_apply w1b _ k mm)
  · refine (broadcastTo_1b_ab_apply _ _ r k).trans ?_
    exact shapeCast_1ab_ab_apply b1b _ (0 : Fin 1) k

/-- What the last block's point writes to the output block, at `(0, r, o)`: the accumulator plus the second bias. -/
theorem biased_apply (acc : Vec Ideal S256x2048 .f32) (b2b : Vec Ideal S1x1x2048 .f32) (u : Fin 1) (r : Fin 256) (o : Fin 2048) :
    k0_pay3 (F := Ideal) acc b2b (ix3 u r o) = acc (ix2 r o) + b2b (ix3 (0 : Fin 1) (0 : Fin 1) o) := by
  unfold k0_pay3
  refine (shapeCast_ab_1ab_apply _ _ u r o).trans ?_
  refine (addf_apply _ _ _).trans ?_
  refine congrArg (acc (ix2 r o) + ·) ?_
  refine (broadcastTo_1b_ab_apply _ _ r o).trans ?_
  exact shapeCast_1ab_ab_apply b2b _ (0 : Fin 1) o

end Cert.ExpertFfn.Block

end
-- ==== Proof.Pieces.lean ====
/-
  What each control case of the body leaves behind, as values of its input blocks.

  The body has three cases along the hidden axis's blocks: the first block (the accumulator is zeroed, then the block's
  contribution is added into it), a middle block (the contribution is added to what the point before left), and the
  last block (the same, and then the accumulator plus the second bias is written to the output block). Each case's
  stores cover the accumulator whole, so what the case leaves is the last store's value, with every load of a buffer
  read as the whole buffer's contents — and a load of the accumulator that follows a store in the same case reads
  that store's value.
-/
import proofs.«180741_j30545807409459_1_alg».proof.Proof.Gen.KernelIdeal.Frame
import Idealize.ShloMosaic.Lib.Pipeline.Value
import Idealize.ShloMosaic.Lib.Tactic

noncomputable section

namespace Cert.ExpertFfn.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle block: the accumulator ends at what it held (`acc`) with the block's contribution added. -/
theorem middle_acc (c : Dev nD) (i : grid0.Coords) (arg3 : Memref sig .tc .vmem S1x256x2048 .bf16) (harg3 : arg3.IsWhole) (arg4 : Memref sig .tc .vmem S1x1024x2048 .bf16) (harg4 : arg4.IsWhole) (arg5 : Memref sig .tc .vmem S1x1x1024 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x256x2048 .f32) (harg8 : arg8.IsWhole) (arg9 : Memref sig .tc .vmem S256x2048 .f32) (harg9 : arg9.IsWhole) (hc0 : ¬cond0_0 i) (hc1 : ¬cond0_1 i)
    (x0 : Vec F S1x256x2048 .bf16) (x1 : Vec F S1x1024x2048 .bf16) (x2 : Vec F S1x1x1024 .f32) (x3 : Vec F S1x1024x2048 .bf16) (x4 : Vec F S1x1x2048 .f32) (acc : Vec F S256x2048 .f32) :
    sout0_B_0 c i arg3 harg3 arg4 harg4 arg5 harg5 arg6 harg6 arg7 harg7 arg8 harg8 arg9 harg9 hc0 hc1 x0 x1 x2 x3 x4 acc = k0_pay2 x0 x1 x2 x3 acc := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 acc)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, View.ld_unit_zero (S := S1x256x2048) hz3, View.ld_unit_zero (S := S1x1024x2048) hz3, View.ld_unit_zero (S := S1x1x1024) hz3, View.ld_unit_zero (S := S1x1x2048) hz3, View.ld_unit_zero (S := S256x2048) hz2]

/-- The first block: the accumulator is zeroed and the block's contribution added to the zeros. -/
theorem first_acc (c : Dev nD) (i : grid0.Coords) (arg3 : Memref sig .tc .vmem S1x256x2048 .bf16) (harg3 : arg3.IsWhole) (arg4 : Memref sig .tc .vmem S1x1024x2048 .bf16) (harg4 : arg4.IsWhole) (arg5 : Memref sig .tc .vmem S1x1x1024 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x256x2048 .f32) (harg8 : arg8.IsWhole) (arg9 : Memref sig .tc .vmem S256x2048 .f32) (harg9 : arg9.IsWhole) (hc0 : cond0_0 i) (hc1 : ¬cond0_1 i)
    (x0 : Vec F S1x256x2048 .bf16) (x1 : Vec F S1x1024x2048 .bf16) (x2 : Vec F S1x1x1024 .f32) (x3 : Vec F S1x1024x2048 .bf16) (x4 : Vec F S1x1x2048 .f32) :
    sout0_A_0 c i arg3 harg3 arg4 harg4 arg5 harg5 arg6 harg6 arg7 harg7 arg8 harg8 arg9 harg9 hc0 hc1 x0 x1 x2 x3 x4 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S256x2048) hz2, View.readCov_unit_zero (S := S256x2048) _ hz2]
  simp only [View.readAt_eq_ld, harg3.read_unread, harg4.read_unread, harg5.read_unread, harg6.read_unread, harg7.read_unread, harg8.read_unread, harg9.read_unread, View.ld_unit_zero (S := S1x256x2048) hz3, View.ld_unit_zero (S := S1x1024x2048) hz3, View.ld_unit_zero (S := S1x1x1024) hz3, View.ld_unit_zero (S := S1x1x2048) hz3, View.ld_unit_zero (S := S256x2048) hz2, View.readCov_unit_zero (S := S256x2048) _ hz2]

/-- The last block: the accumulator as at a middle block … -/
theorem last_acc (c : Dev nD) (i : grid0.Coords) (arg3 : Memref sig .tc .vmem S1x256x2048 .bf16) (harg3 : arg3.IsWhole) (arg4 : Memref sig .tc .vmem S1x1024x2048 .bf16) (harg4 : arg4.IsWhole) (arg5 : Memref sig .tc .vmem S1x1x1024 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x256x2048 .f32) (harg8 : arg8.IsWhole) (arg9 : Memref sig .tc .vmem S256x2048 .f32) (harg9 : arg9.IsWhole) (hc0 : ¬cond0_0 i) (hc1 : cond0_1 i)
    (x0 : Vec F S1x256x2048 .bf16) (x1 : Vec F S1x1024x2048 .bf16) (x2 : Vec F S1x1x1024 .f32) (x3 : Vec F S1x1024x2048 .bf16) (x4 : Vec F S1x1x2048 .f32) (acc : Vec F S256x2048 .f32) :
    sout0_C_0 c i arg3 harg3 arg4 harg4 arg5 harg5 arg6 harg6 arg7 harg7 arg8 harg8 arg9 harg9 hc0 hc1 x0 x1 x2 x3 x4 acc = k0_pay2 x0 x1 x2 x3 acc := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 acc)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, View.ld_unit_zero (S := S1x256x2048) hz3, View.ld_unit_zero (S := S1x1024x2048) hz3, View.ld_unit_zero (S := S1x1x1024) hz3, View.ld_unit_zero (S := S1x1x2048) hz3, View.ld_unit_zero (S := S256x2048) hz2]

/-- … and the output block is that accumulator with the second bias added to every row. -/
theorem last_out (c : Dev nD) (i : grid0.Coords) (arg3 : Memref sig .tc .vmem S1x256x2048 .bf16) (harg3 : arg3.IsWhole) (arg4 : Memref sig .tc .vmem S1x1024x2048 .bf16) (harg4 : arg4.IsWhole) (arg5 : Memref sig .tc .vmem S1x1x1024 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x256x2048 .f32) (harg8 : arg8.IsWhole) (arg9 : Memref sig .tc .vmem S256x2048 .f32) (harg9 : arg9.IsWhole) (hc0 : ¬cond0_0 i) (hc1 : cond0_1 i)
    (x0 : Vec F S1x256x2048 .bf16) (x1 : Vec F S1x1024x2048 .bf16) (x2 : Vec F S1x1x1024 .f32) (x3 : Vec F S1x1024x2048 .bf16) (x4 : Vec F S1x1x2048 .f32) (acc : Vec F S256x2048 .f32) :
    out0_C_5 c i arg3 harg3 arg4 harg4 arg5 harg5 arg6 harg6 arg7 harg7 arg8 harg8 arg9 harg9 hc0 hc1 x0 x1 x2 x3 x4 acc = k0_pay3 (k0_pay2 x0 x1 x2 x3 acc) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 acc)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, View.ld_unit_zero (S := S1x256x2048) hz3, View.ld_unit_zero (S := S1x1024x2048) hz3, View.ld_unit_zero (S := S1x1x1024) hz3, View.ld_unit_zero (S := S1x1x2048) hz3, View.ld_unit_zero (S := S256x2048) hz2, View.readCov_unit_zero (S := S256x2048) _ hz2]

end Cert.ExpertFfn.Pieces

end
-- ==== Proof.Blocks.lean ====
/-
  The blocks a grid point works on, read off the five argument arrays.

  Point `t` of the 8 × 4 × 8 grid (expert, row tile, hidden block; the hidden block moves fastest) has expert
  `t / 32`, row tile `t / 8 % 4` and hidden block `t % 8`. Its blocks are: rows `256·tile + r` of the expert's
  `x`; hidden units `1024·block + k` of the expert's `w1`, `b1` and `w2`; and the expert's row of `b2`. Before the
  grid runs the host only changes the float format of `x`, `w1`, `w2` (the identity on the extended reals) and gives
  `b1`, `b2` a unit middle axis, so every block entry is an entry of an argument array. With these readings the
  contribution of one point (Block.addend) is the sum of the specification's terms over the point's hidden block.
-/
import proofs.«180741_j30545807409459_1_alg».proof.Proof.Gen.KernelIdeal.Frame
import proofs.«180741_j30545807409459_1_alg».proof.Proof.FfnSpec
import proofs.«180741_j30545807409459_1_alg».proof.Proof.BlockTerms
import Idealize.ShloMosaic.Lib.Pipeline.Value
import Idealize.ShloMosaic.Lib.StableHlo.Run
import Idealize.ShloMosaic.Lib.ValueIdx
import Idealize.ShloMosaic.Lib.Tactic

noncomputable section

namespace Cert.ExpertFfn.Blocks

open Cert.KernelIdeal Cert.KernelIdeal.Gen Idealize.ShloMosaic Idealize.ShloMosaic.TcCoe Idealize.SL.Sem
open Idealize.ShloMosaic.ValueIdx Cert.ExpertFfn

variable (m : (ℓ : Loc nD τ sig) → Buf (Elt Ideal) ℓ)

/-! ## The argument arrays, and the arrays the grid's windows read -/

abbrev xArr (c : Dev nD) : S8x1024x2048.Idx → EReal := m ((c : Thread nD τ).loc main_arg0)
abbrev w1Arr (c : Dev nD) : S8x8192x2048.Idx → EReal := m ((c : Thread nD τ).loc main_arg1)
abbrev b1Arr (c : Dev nD) : S8x8192.Idx → EReal := m ((c : Thread nD τ).loc main_arg2)
abbrev w2Arr (c : Dev nD) : S8x8192x2048.Idx → EReal := m ((c : Thread nD τ).loc main_arg3)
abbrev b2Arr (c : Dev nD) : S8x2048.Idx → EReal := m ((c : Thread nD τ).loc main_arg4)

/-- A change of float format is the identity: the grid's `x` is the argument. -/
theorem x_entry (c : Dev nD) : (V m c main_v0 : S8x1024x2048.Idx → EReal) = xArr m c := by
  dsimp only [V, hostOps0]; after_results; rfl
theorem w1_entry (c : Dev nD) : (V m c main_v1 : S8x8192x2048.Idx → EReal) = w1Arr m c := by
  dsimp only [V, hostOps0]; after_results; rfl
theorem w2_entry (c : Dev nD) : (V m c main_v2 : S8x8192x2048.Idx → EReal) = w2Arr m c := by
  dsimp only [V, hostOps0]; after_results; rfl
/-- The biases get a unit middle axis. -/
theorem b1_entry (c : Dev nD) : (V m c main_v3 : S8x1x8192.Idx → EReal) = shapeCast S8x1x8192 (b1Arr m c) shapeCasts_S8x8192_S8x1x8192 := by
  dsimp only [V, hostOps0]; after_results; rfl
theorem b2_entry (c : Dev nD) : (V m c main_v4 : S8x1x2048.Idx → EReal) = shapeCast S8x1x2048 (b2Arr m c) shapeCasts_S8x2048_S8x1x2048 := by
  dsimp only [V, hostOps0]; after_results; rfl

theorem b1_entry_apply (c : Dev nD) (e : Fin 8) (u : Fin 1) (h : Fin 8192) :
    (V m c main_v3 : S8x1x8192.Idx → EReal) (ix3 e u h) = b1Arr m c (ix2 e h) := by
  rw [b1_entry]
  refine shapeCast_apply _ _ _ _ ?_
  have hu : u.val = 0 := by omega
  rw [Shape.rowMajor_val_two, Shape.rowMajor_val_three]
  show e.val * 8192 + h.val = (e.val * 1 + u.val) * 8192 + h.val
  rw [hu]; omega

theorem b2_entry_apply (c : Dev nD) (e : Fin 8) (u : Fin 1) (o : Fin 2048) :
    (V m c main_v4 : S8x1x2048.Idx → EReal) (ix3 e u o) = b2Arr m c (ix2 e o) := by
  rw [b2_entry]
  refine shapeCast_apply _ _ _ _ ?_
  have hu : u.val = 0 := by omega
  rw [Shape.rowMajor_val_two, Shape.rowMajor_val_three]
  show e.val * 2048 + o.val = (e.val * 1 + u.val) * 2048 + o.val
  rw [hu]; omega

/-! ## A point's coordinates, and where its blocks sit -/

theorem lt256 (t : Fin cfg0.N) : t.val < 256 := lt_of_lt_of_eq t.isLt (show cfg0.N = 256 from N_0)

/-- The point's expert. -/
def expert (t : Fin cfg0.N) : Fin 8 := ⟨t.val / 32, by have := lt256 t; omega⟩
/-- Row `r` of the point's row tile, as a row of the expert's 1024. -/
def rowOf (t : Fin cfg0.N) (r : Fin 256) : Fin 1024 := ⟨t.val / 8 % 4 * 256 + r.val, by have := r.isLt; omega⟩
/-- Unit `k` of the point's hidden block, as one of the 8192 hidden units. -/
def hidOf (t : Fin cfg0.N) (k : Fin 1024) : Fin 8192 := ⟨t.val % 8 * 1024 + k.val, by have := k.isLt; omega⟩

/-- The printed index maps at every point, decided over the grid. -/
theorem index_facts : ∀ t : Fin cfg0.N,
    win0_0.index t (0 : Fin 3) = t.val / 32 ∧ win0_0.index t (1 : Fin 3) = t.val / 8 % 4 ∧ win0_0.index t (2 : Fin 3) = 0
    ∧ win0_1.index t (0 : Fin 3) = t.val / 32 ∧ win0_1.index t (1 : Fin 3) = t.val % 8 ∧ win0_1.index t (2 : Fin 3) = 0
    ∧ win0_2.index t (0 : Fin 3) = t.val / 32 ∧ win0_2.index t (1 : Fin 3) = 0 ∧ win0_2.index t (2 : Fin 3) = t.val % 8
    ∧ win0_3.index t (0 : Fin 3) = t.val / 32 ∧ win0_3.index t (1 : Fin 3) = t.val % 8 ∧ win0_3.index t (2 : Fin 3) = 0
    ∧ win0_4.index t (0 : Fin 3) = t.val / 32 ∧ win0_4.index t (1 : Fin 3) = 0 ∧ win0_4.index t (2 : Fin 3) = 0
    ∧ win0_5.index t (0 : Fin 3) = t.val / 32 ∧ win0_5.index t (1 : Fin 3) = t.val / 8 % 4 ∧ win0_5.index t (2 : Fin 3) = 0 :=
  (by decide +kernel : ∀ t : Fin grid0.N, _)

/-- The point's input blocks, at their literal types. -/
abbrev xblk (c : Dev nD) (t : Fin cfg0.N) : Vec Ideal S1x256x2048 .bf16 := iblk m c 0 t
abbrev w1blk (c : Dev nD) (t : Fin cfg0.N) : Vec Ideal S1x1024x2048 .bf16 := iblk m c 1 t
abbrev b1blk (c : Dev nD) (t : Fin cfg0.N) : Vec Ideal S1x1x1024 .f32 := iblk m c 2 t
abbrev w2blk (c : Dev nD) (t : Fin cfg0.N) : Vec Ideal S1x1024x2048 .bf16 := iblk m c 3 t
abbrev b2blk (c : Dev nD) (t : Fin cfg0.N) : Vec Ideal S1x1x2048 .f32 := iblk m c 4 t

theorem xblk_apply (c : Dev nD) (t : Fin cfg0.N) (u : Fin 1) (r : Fin 256) (mm : Fin 2048) :
    xblk m c t (ix3 u r mm) = xArr m c (ix3 (expert t) (rowOf t r) mm) := by
  obtain ⟨e0, e1, e2, -⟩ := index_facts t
  have hu : u.val = 0 := by omega
  refine Eq.trans ?_ (congrFun (x_entry m c) _)
  show V m c main_v0 (((cfg0.win 0).blk t).view.emb (ix3 u r mm)) = V m c main_v0 (ix3 (expert t) (rowOf t r) mm)
  refine congrArg (V m c main_v0) (funext fun a => Fin.ext ?_)
  match a with
  | ⟨0, _⟩ => show win0_0.index t (0 : Fin 3) * 1 + 1 * u.val = t.val / 32; omega
  | ⟨1, _⟩ => show win0_0.index t (1 : Fin 3) * 256 + 1 * r.val = t.val / 8 % 4 * 256 + r.val; omega
  | ⟨2, _⟩ => show win0_0.index t (2 : Fin 3) * 2048 + 1 * mm.val = mm.val; omega

theorem w1blk_apply (c : Dev nD) (t : Fin cfg0.N) (u : Fin 1) (k : Fin 1024) (mm : Fin 2048) :
    w1blk m c t (ix3 u k mm) = w1Arr m c (ix3 (expert t) (hidOf t k) mm) := by
  obtain ⟨-, -, -, e0, e1, e2, -⟩ := index_facts t
  have hu : u.val = 0 := by omega
  refine Eq.trans ?_ (congrFun (w1_entry m c) _)
  show V m c main_v1 (((cfg0.win 1).blk t).view.emb (ix3 u k mm)) = V m c main_v1 (ix3 (expert t) (hidOf t k) mm)
  refine congrArg (V m c main_v1) (funext fun a => Fin.ext ?_)
  match a with
  | ⟨0, _⟩ => show win0_1.index t (0 : Fin 3) * 1 + 1 * u.val = t.val / 32; omega
  | ⟨1, _⟩ => show win0_1.index t (1 : Fin 3) * 1024 + 1 * k.val = t.val % 8 * 1024 + k.val; omega
  | ⟨2, _⟩ => show win0_1.index t (2 : Fin 3) * 2048 + 1 * mm.val = mm.val; omega

theorem b1blk_apply (c : Dev nD) (t : Fin cfg0.N) (u v : Fin 1) (k : Fin 1024) :
    b1blk m c t (ix3 u v k) = b1Arr m c (ix2 (expert t) (hidOf t k)) := by
  obtain ⟨-, -, -, -, -, -, e0, e1, e2, -⟩ := index_facts t
  have hu : u.val = 0 := by omega
  have hv : v.val = 0 := by omega
  refine Eq.trans ?_ (b1_entry_apply m c (expert t) (0 : Fin 1) (hidOf t k))
  show V m c main_v3 (((cfg0.win 2).blk t).view.emb (ix3 u v k)) = V m c main_v3 (ix3 (expert t) (0 : Fin 1) (hidOf t k))
  refine congrArg (V m c main_v3) (funext fun a => Fin.ext ?_)
  match a with
  | ⟨0, _⟩ => show win0_2.index t (0 : Fin 3) * 1 + 1 * u.val = t.val / 32; omega
  | ⟨1, _⟩ => show win0_2.index t (1 : Fin 3) * 1 + 1 * v.val = 0; omega
  | ⟨2, _⟩ => show win0_2.index t (2 : Fin 3) * 1024 + 1 * k.val = t.val % 8 * 1024 + k.val; omega

theorem w2blk_apply (c : Dev nD) (t : Fin cfg0.N) (u : Fin 1) (k : Fin 1024) (o : Fin 2048) :
    w2blk m c t (ix3 u k o) = w2Arr m c (ix3 (expert t) (hidOf t k) o) := by
  obtain ⟨-, -, -, -, -, -, -, -, -, e0, e1, e2, -⟩ := index_facts t
  have hu : u.val = 0 := by omega
  refine Eq.trans ?_ (congrFun (w2_entry m c) _)
  show V m c main_v2 (((cfg0.win 3).blk t).view.emb (ix3 u k o)) = V m c main_v2 (ix3 (expert t) (hidOf t k) o)
  refine congrArg (V m c main_v2) (funext fun a => Fin.ext ?_)
  match a with
  | ⟨0, _⟩ => show win0_3.index t (0 : Fin 3) * 1 + 1 * u.val = t.val / 32; omega
  | ⟨1, _⟩ => show win0_3.index t (1 : Fin 3) * 1024 + 1 * k.val = t.val % 8 * 1024 + k.val; omega
  | ⟨2, _⟩ => show win0_3.index t (2 : Fin 3) * 2048 + 1 * o.val = o.val; omega

theorem b2blk_apply (c : Dev nD) (t : Fin cfg0.N) (u v : Fin 1) (o : Fin 2048) :
    b2blk m c t (ix3 u v o) = b2Arr m c (ix2 (expert t) o) := by
  obtain ⟨-, -, -, -, -, -, -, -, -, -, -, -, e0, e1, e2, -⟩ := index_facts t
  have hu : u.val = 0 := by omega
  have hv : v.val = 0 := by omega
  refine Eq.trans ?_ (b2_entry_apply m c (expert t) (0 : Fin 1) o)
  show V m c main_v4 (((cfg0.win 4).blk t).view.emb (ix3 u v o)) = V m c main_v4 (ix3 (expert t) (0 : Fin 1) o)
  refine congrArg (V m c main_v4) (funext fun a => Fin.ext ?_)
  match a with
  | ⟨0, _⟩ => show win0_4.index t (0 : Fin 3) * 1 + 1 * u.val = t.val / 32; omega
  | ⟨1, _⟩ => show win0_4.index t (1 : Fin 3) * 1 + 1 * v.val = 0; omega
  | ⟨2, _⟩ => show win0_4.index t (2 : Fin 3) * 2048 + 1 * o.val = o.val; omega

/-! ## One point's contribution, in the specification's terms -/

/-- The hidden block of point `t` at `(r, k)` is the specification's hidden activation at the point's expert, row
    `256·tile + r` and hidden unit `1024·block + k`. -/
theorem hiddenBlk_eq (c : Dev nD) (t : Fin cfg0.N) (r : Fin 256) (k : Fin 1024) :
    Block.hiddenBlk (xblk m c t) (w1blk m c t) (b1blk m c t) r k
      = hidden (xArr m c) (w1Arr m c) (b1Arr m c) (expert t) (rowOf t r) (hidOf t k) := by
  unfold Block.hiddenBlk hidden pre
  refine congrArg (max · 0) ?_
  refine congrArg₂ (· + ·) (Finset.sum_congr rfl fun mm _ => ?_) (b1blk_apply m c t 0 0 k)
  exact congrArg₂ (· * ·) (xblk_apply m c t 0 r mm) (w1blk_apply m c t 0 k mm)

/-- Point `t`'s contribution at `(r, o)`: the specification's terms over the point's hidden block. -/
theorem addend_eq (c : Dev nD) (t : Fin cfg0.N) (r : Fin 256) (o : Fin 2048) :
    Block.addend (xblk m c t) (w1blk m c t) (b1blk m c t) (w2blk m c t) r o
      = ∑ k : Fin 1024, summand (xArr m c) (w1Arr m c) (b1Arr m c) (w2Arr m c) (expert t) (rowOf t r) o (t.val % 8 * 1024 + k.val) := by
  unfold Block.addend
  refine Finset.sum_congr rfl fun k _ => ?_
  unfold summand
  rw [dif_pos (show t.val % 8 * 1024 + k.val < 8192 from (hidOf t k).isLt)]
  exact congrArg₂ (· * ·) (hiddenBlk_eq m c t r k) (w2blk_apply m c t 0 k o)

end Cert.ExpertFfn.Blocks

end
-- ==== Proof.KernelIsFfn.lean ====
/-
  The kernel's result array is the layer `out` of the argument arrays.

  Along one hidden axis (8 consecutive points `8q … 8q + 7`) the accumulator starts at zero plus the first point's
  contribution and each later point adds its own, so after the last point it holds zero plus the sum of the eight
  contributions (`acc_fold`); that point writes the accumulator plus the second bias to the output block. Each
  contribution is the sum of the specification's terms over its hidden block, so the eight together are the whole
  hidden sum cut into blocks: the written block is the block of `out` (`flushed_eq`). The 32 last points' blocks
  tile the result array (`cover`), so the array ends at `out`.
-/
import proofs.«180741_j30545807409459_1_alg».proof.Proof.Gen.KernelIdeal.Value
import proofs.«180741_j30545807409459_1_alg».proof.Proof.FfnSpec
import proofs.«180741_j30545807409459_1_alg».proof.Proof.BlockTerms
import proofs.«180741_j30545807409459_1_alg».proof.Proof.Pieces
import proofs.«180741_j30545807409459_1_alg».proof.Proof.Blocks
import Idealize.ShloMosaic.Lib.Pipeline.Value
import Idealize.ShloMosaic.Lib.ValueIdx

noncomputable section

namespace Cert.ExpertFfn.Kernel

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.ExpertFfn Cert.ExpertFfn.Blocks

variable (m : (ℓ : Loc nD τ sig) → Buf (Elt Ideal) ℓ) (ρ : Dev nD → PrngReg)

/-! ## One point's step on the accumulator -/

/-- At a hidden axis's first point the accumulator is zeroed and the point's contribution stored over the zeros. -/
theorem step_first (c : Dev nD) (n : ℕ) (hb : n < cfg0.N) (h0 : n % 8 = 0) (acc : Vec Ideal S256x2048 .f32) :
    scAt0_0 m c n hb acc
      = k0_pay2 (xblk m c (⟨n, hb⟩ : Fin cfg0.N)) (w1blk m c (⟨n, hb⟩ : Fin cfg0.N)) (b1blk m c (⟨n, hb⟩ : Fin cfg0.N)) (w2blk m c (⟨n, hb⟩ : Fin cfg0.N)) (k0_pay1 (F := Ideal)) := by
  have h1 : ¬n % 8 = 7 := by omega
  unfold scAt0_0
  rw [dif_pos h0, dif_neg h1]
  exact Pieces.first_acc c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))

/-- At every later point the contribution is added to what the point before left. -/
theorem step_later (c : Dev nD) (n : ℕ) (hb : n < cfg0.N) (h0 : ¬n % 8 = 0) (acc : Vec Ideal S256x2048 .f32) :
    scAt0_0 m c n hb acc
      = k0_pay2 (xblk m c (⟨n, hb⟩ : Fin cfg0.N)) (w1blk m c (⟨n, hb⟩ : Fin cfg0.N)) (b1blk m c (⟨n, hb⟩ : Fin cfg0.N)) (w2blk m c (⟨n, hb⟩ : Fin cfg0.N)) acc := by
  unfold scAt0_0
  rw [dif_neg h0]
  by_cases h1 : n % 8 = 7
  · rw [dif_pos h1]
    exact Pieces.last_acc c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
  · rw [dif_neg h1]
    exact Pieces.middle_acc c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- Point `n`'s contribution to the accumulator, as a function of every natural (zero past the grid). -/
def contribution (c : Dev nD) (n : ℕ) : S256x2048.Idx → EReal := fun i =>
  if hb : n < cfg0.N then
    Block.addend (xblk m c (⟨n, hb⟩ : Fin cfg0.N)) (w1blk m c (⟨n, hb⟩ : Fin cfg0.N)) (b1blk m c (⟨n, hb⟩ : Fin cfg0.N)) (w2blk m c (⟨n, hb⟩ : Fin cfg0.N)) (i 0) (i 1)
  else 0

/-- After a hidden axis's last point the accumulator holds zero plus the sum of the axis's eight contributions. -/
theorem acc_fold (c : Dev nD) (t : Fin cfg0.N) (h7 : t.val % 8 = 7) (i : S256x2048.Idx) :
    (outsAt0 m c t.val t.isLt).2 i = 0 + ∑ s ∈ Finset.range 8, contribution m c (8 * (t.val / 8) + s) i := by
  rw [soutsAt0_0_eq m c t]
  have key := Pipeline.accAt_add_apply (N := cfg0.N)
    (fun n h => scAt0_0 m c n h (VS0_0.read (Elt Ideal) VS0_0.junk)) (scAt0_0 m c) (fun _ => (0 : EReal))
    (contribution m c) (8 * (t.val / 8)) 7
    (fun h j => by
      obtain ⟨r, o, rfl⟩ : ∃ (r : Fin 256) (o : Fin 2048), j = ix2 r o := ⟨j 0, j 1, eq_ix2 j⟩
      show scAt0_0 m c (8 * (t.val / 8)) h (VS0_0.read (Elt Ideal) VS0_0.junk) (ix2 r o) = 0 + contribution m c (8 * (t.val / 8)) (ix2 r o)
      rw [step_first m c _ h (by omega), Block.partial_apply, Block.zero_apply]
      unfold contribution
      rw [dif_pos h])
    (fun n h acc j h1 h2 => by
      obtain ⟨r, o, rfl⟩ : ∃ (r : Fin 256) (o : Fin 2048), j = ix2 r o := ⟨j 0, j 1, eq_ix2 j⟩
      show scAt0_0 m c n h acc (ix2 r o) = acc (ix2 r o) + contribution m c n (ix2 r o)
      rw [step_later m c n h (by omega), Block.partial_apply]
      unfold contribution
      rw [dif_pos h])
    (t.val % 8) (by omega) (by have := t.isLt; omega) i
  rw [key, h7]

/-! ## What a hidden axis's last point writes back -/

/-- The accumulator after the last point of an axis is that point's step on what the point before left. -/
theorem acc_last (c : Dev nD) (t : Fin cfg0.N) (h0 : ¬t.val % 8 = 0) (h7 : t.val % 8 = 7) :
    (outsAt0 m c t.val t.isLt).2
      = k0_pay2 (xblk m c t) (w1blk m c t) (b1blk m c t) (w2blk m c t) (outsAt0 m c (t.val - 1) (Nat.lt_of_le_of_lt (Nat.sub_le _ _) t.isLt)).2 := by
  rw [outsAt0_C m c t h0 h7]
  dsimp only
  exact Pieces.last_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) (iblk m c 4 t) _

/-- Where the output block of a point sits in the result array. -/
theorem out_index_facts : ∀ t : Fin cfg0.N, win0_5.index t (0 : Fin 3) = t.val / 32 ∧ win0_5.index t (1 : Fin 3) = t.val / 8 % 4 ∧ win0_5.index t (2 : Fin 3) = 0 :=
  fun t => by obtain ⟨-, -, -, -, -, -, -, -, -, -, -, -, -, -, -, e0, e1, e2⟩ := index_facts t; exact ⟨e0, e1, e2⟩

/-- WHAT A FLUSHING POINT WRITES BACK is its block of `out` of the argument arrays. -/
theorem flushed_eq (c : Dev nD) (t : Fin cfg0.N) (hf : (cfg0.win 5).flush t = true) :
    (dats m 0 c).flushed 5 t
      = ((cfg0.win 5).blk t).view.read (Elt Ideal) (out (xArr m c) (w1Arr m c) (b1Arr m c) (w2Arr m c) (b2Arr m c)) := by
  have h7 : t.val % 8 = 7 := (flush0_5 t).mp hf
  have h0 : ¬t.val % 8 = 0 := by omega
  have ht := lt256 t
  obtain ⟨e0, e1, e2⟩ := out_index_facts t
  rw [flushed5_C m c t h0 h7,
    Pieces.last_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) (iblk m c 4 t) _]
  funext y
  obtain ⟨u, r, o, rfl⟩ : ∃ (u : Fin 1) (r : Fin 256) (o : Fin 2048), y = ix3 u r o := ⟨y 0, y 1, y 2, eq_ix3 y⟩
  show k0_pay3 (F := Ideal) (k0_pay2 (xblk m c t) (w1blk m c t) (b1blk m c t) (w2blk m c t) (outsAt0 m c (t.val - 1) (Nat.lt_of_le_of_lt (Nat.sub_le _ _) t.isLt)).2) (b2blk m c t) (ix3 u r o)
      = out (xArr m c) (w1Arr m c) (b1Arr m c) (w2Arr m c) (b2Arr m c) (((cfg0.win 5).blk t).view.emb (ix3 u r o))
  have hemb : ((cfg0.win 5).blk t).view.emb (ix3 u r o) = (ix3 (expert t) (rowOf t r) o : S8x1024x2048.Idx) := by
    have hu : u.val = 0 := by omega
    funext a; apply Fin.ext
    match a with
    | ⟨0, _⟩ => show win0_5.index t (0 : Fin 3) * 1 + 1 * u.val = t.val / 32; omega
    | ⟨1, _⟩ => show win0_5.index t (1 : Fin 3) * 256 + 1 * r.val = t.val / 8 % 4 * 256 + r.val; omega
    | ⟨2, _⟩ => show win0_5.index t (2 : Fin 3) * 2048 + 1 * o.val = o.val; omega
  rw [hemb, ← acc_last m c t h0 h7, Block.biased_apply, acc_fold m c t h7, b2blk_apply m c t 0 0 o, out_eq_blocks]
  refine congrArg (· + b2Arr m c (ix2 (expert t) o)) (congrArg (0 + ·) (Finset.sum_congr rfl fun s hs => ?_))
  have hs8 : s < 8 := Finset.mem_range.mp hs
  have hb : 8 * (t.val / 8) + s < cfg0.N := lt_of_lt_of_eq (by omega : 8 * (t.val / 8) + s < 256) N_0.symm
  unfold contribution
  rw [dif_pos hb]
  refine (addend_eq m c ⟨8 * (t.val / 8) + s, hb⟩ r o).trans ?_
  have hE : expert (⟨8 * (t.val / 8) + s, hb⟩ : Fin cfg0.N) = expert t := Fin.ext (by show (8 * (t.val / 8) + s) / 32 = t.val / 32; omega)
  have hR : rowOf (⟨8 * (t.val / 8) + s, hb⟩ : Fin cfg0.N) r = rowOf t r := Fin.ext (by show (8 * (t.val / 8) + s) / 8 % 4 * 256 + r.val = t.val / 8 % 4 * 256 + r.val; omega)
  have hS : (8 * (t.val / 8) + s) % 8 = s := by omega
  rw [hE, hR]
  refine Finset.sum_congr rfl fun k _ => ?_
  show summand _ _ _ _ _ _ _ ((8 * (t.val / 8) + s) % 8 * 1024 + k.val) = _
  rw [hS]

/-! ## From the flushed blocks to the whole array -/

/-- An index of the result array is in point `t`'s block iff each coordinate is in the block's range on its axis. -/
theorem mem_blk (t : Fin cfg0.N) (i : S8x1024x2048.Idx) :
    i ∈ ((cfg0.win 5).blk t).view.set ↔ ∀ a : Fin 3, win0_5.index t a * S1x256x2048.size a ≤ (i a).val ∧ (i a).val < win0_5.index t a * S1x256x2048.size a + S1x256x2048.size a := by
  show i ∈ ((View.whole main_v5).slice (win0_5.rect t)).set ↔ _
  rw [View.set_slice_whole, Rect.mem_set_unit]
  exact Iff.rfl

/-- Every entry `(e, c, o)` of the result array is in the block the last point of expert `e`, row tile `c / 256`
    writes back: point `32·e + 8·(c / 256) + 7`. -/
theorem cover (i : S8x1024x2048.Idx) :
    ∃ t : Fin cfg0.N, (cfg0.win 5).flush t = true ∧ i ∈ ((cfg0.win 5).blk t).view.set := by
  have hi0 : (i 0).val < 8 := (i 0).isLt
  have hi1 : (i 1).val < 1024 := (i 1).isLt
  have hi2 : (i 2).val < 2048 := (i 2).isLt
  have hN : cfg0.N = 256 := N_0
  let t : Fin cfg0.N := ⟨32 * (i 0).val + 8 * ((i 1).val / 256) + 7, by omega⟩
  have hv : t.val = 32 * (i 0).val + 8 * ((i 1).val / 256) + 7 := rfl
  obtain ⟨e0, e1, e2⟩ := out_index_facts t
  refine ⟨t, (flush0_5 t).mpr (by omega), ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-- The result array after the run. -/
theorem final (c : Dev nD) :
    (dats m 0 c).arrAt 5 cfg0.N = out (xArr m c) (w1Arr m c) (b1Arr m c) (w2Arr m c) (b2Arr m c) :=
  (dats m 0 c).arrAt_eq_of_cover 5 _ (fun t hf => flushed_eq m c t hf) cover

/-- THE KERNEL'S RUN: it terminates with the result array at `out` of the arguments, the arguments unchanged. -/
theorem run : θ_run defs (onTc (τ := τ) (main (F := Ideal))) ⟨m, fun _ => 0, ρ⟩ fun r => ∀ c : Dev nD,
      r.2.mem ((c : Thread nD τ).loc main_v5) = out (xArr m c) (w1Arr m c) (b1Arr m c) (w2Arr m c) (b2Arr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.ExpertFfn.Kernel

end
-- ==== Proof.lean ====
/-
  A grouped expert feed-forward layer, kernel against reference, over the extended reals.

  For each of 8 experts the layer maps a [1024, 2048] block of rows `x` to

      out = max (x · w1ᵀ + b1) 0 · w2 + b2,        w1 : [8192, 2048],  w2 : [8192, 2048],

  the reference by two whole contractions. The kernel walks a grid of (expert, row tile of 256, hidden block of 1024):
  at each point it forms the hidden block `max (x_tile · w1_blockᵀ + b1_block) 0`, multiplies it by the matching block of
  `w2` and adds the product into an accumulator zeroed at the first hidden block; at the last hidden block it writes the
  accumulator plus `b2` to the output tile. Its inputs' change of float format is the identity on the extended reals, a
  matrix unit's product into a zero accumulator is a plain sum, and so the kernel's result is `out` with the hidden sum
  cut into 8 consecutive blocks and started from zero. That is the same sum: a sum over `8 · 1024` consecutive indices is
  the sum of the 8 block sums, in any commutative monoid, so no finiteness of the inputs is used.

  The frames of the two kernel programs are the generated frame certificates; the reference's frame is its generated
  run with the result dropped; the ideal pass rewrote nothing, so `preserves` is trivial; `algebraic` sets the kernel's
  run (Proof/KernelIsFfn.lean) beside the reference's generated run read as `out` (Proof/RefIsFfn.lean).
-/
import proofs.«180741_j30545807409459_1_alg».proof.Defs
import proofs.«180741_j30545807409459_1_alg».proof.Proof.Gen.Kernel
import proofs.«180741_j30545807409459_1_alg».proof.Proof.Gen.Kernel.Skeleton
import proofs.«180741_j30545807409459_1_alg».proof.Proof.Gen.Kernel.Launch
import proofs.«180741_j30545807409459_1_alg».proof.Proof.Gen.Kernel.Points
import proofs.«180741_j30545807409459_1_alg».proof.Proof.Gen.Kernel.Frame
import proofs.«180741_j30545807409459_1_alg».proof.Proof.Gen.KernelIdeal
import proofs.«180741_j30545807409459_1_alg».proof.Proof.Gen.KernelIdeal.Skeleton
import proofs.«180741_j30545807409459_1_alg».proof.Proof.Gen.KernelIdeal.Launch
import proofs.«180741_j30545807409459_1_alg».proof.Proof.Gen.KernelIdeal.Points
import proofs.«180741_j30545807409459_1_alg».proof.Proof.Gen.KernelIdeal.Frame
import proofs.«180741_j30545807409459_1_alg».proof.Proof.Gen.ReferenceIdeal
import proofs.«180741_j30545807409459_1_alg».proof.Proof.Gen.Pre_finite_inputs
import proofs.«180741_j30545807409459_1_alg».proof.Proof.Gen.KernelIdeal.Value
import proofs.«180741_j30545807409459_1_alg».proof.Proof.Gen.ReferenceIdeal.Run
import proofs.«180741_j30545807409459_1_alg».proof.Proof.Gen.ReferenceIdeal.Read
import proofs.«180741_j30545807409459_1_alg».proof.Proof.FfnSpec
import proofs.«180741_j30545807409459_1_alg».proof.Proof.RefIsFfn
import proofs.«180741_j30545807409459_1_alg».proof.Proof.KernelIsFfn
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `out` of the (agreeing) argument arrays. -/
theorem algebraic : Cert.algebraic_KernelIdeal_ReferenceIdeal := by
  intro m ρ m' ρ' _ hagree
  refine ⟨fun c => Cert.ExpertFfn.out (Cert.ExpertFfn.Blocks.xArr m c) (Cert.ExpertFfn.Blocks.w1Arr m c)
      (Cert.ExpertFfn.Blocks.b1Arr m c) (Cert.ExpertFfn.Blocks.w2Arr m c) (Cert.ExpertFfn.Blocks.b2Arr m c),
    Cert.ExpertFfn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ExpertFfn.Reference.result_eq_out,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
